-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x49152x16 : Shape := ⟨3, ![16, 49152, 16]⟩
abbrev S393216 : Shape := ⟨1, ![393216]⟩
abbrev S80x32 : Shape := ⟨2, ![80, 32]⟩
abbrev S1x1x32 : Shape := ⟨3, ![1, 1, 32]⟩
abbrev S_ : Shape := ⟨0, ![]⟩

class Facts : Prop where
  bcast_S_S16x49152x16 : S_.BroadcastsInDim S16x49152x16 (![] : Fin 0 → Fin S16x49152x16.rank)
  reducesTo_S16x49152x16_S_d0_1_2 : S16x49152x16.ReducesTo [0, 1, 2] S_
  h_S_ : 0 < S_.numel
  bcast_S_S393216 : S_.BroadcastsInDim S393216 (![] : Fin 0 → Fin S393216.rank)
  reducesTo_S393216_S_d0 : S393216.ReducesTo [0] S_
  bcast_S_S80x32 : S_.BroadcastsInDim S80x32 (![] : Fin 0 → Fin S80x32.rank)
  reducesTo_S80x32_S_d0_1 : S80x32.ReducesTo [0, 1] S_
  bcast_S_S1x1x32 : S_.BroadcastsInDim S1x1x32 (![] : Fin 0 → Fin S1x1x32.rank)
  reducesTo_S1x1x32_S_d0_1_2 : S1x1x32.ReducesTo [0, 1, 2] S_

variable [Facts]

def fn_part1 {F : FTy → Type} [FloatOps F] (main_v13 : IVec S_ 1) (main_v16 : IVec S1x1x32 1) : IVec S_ 1 :=
  let main_c_5 : IVec S_ 1 := constantI S_ 1 1#1
  let main_v17 : IVec S_ 1 := (fun x v => Host.reduce IntOp.andi x v reducesTo_S1x1x32_S_d0_1_2 h_S_) main_v16 main_c_5
  let main_v18 : IVec S_ 1 := andi main_v13 main_v17
  main_v18

def fn {F : FTy → Type} [FloatOps F] (main_arg0 : FVec F S16x49152x16 .f32) (main_arg1 : IVec S393216 32) (main_arg2 : IVec S393216 32) (main_arg3 : FVec F S393216 .f32) (main_arg4 : FVec F S80x32 .f32) (main_arg5 : FVec F S1x1x32 .f32) : IVec S_ 1 :=
  let main_v0 : FVec F S16x49152x16 .f32 := Host.absf main_arg0
  let main_cst : FVec F S_ .f32 := constant S_ .f32 0x7F800000#32
  let main_v1 : FVec F S16x49152x16 .f32 := broadcastInDim S16x49152x16 ![] bcast_S_S16x49152x16 main_cst
  let main_v2 : IVec S16x49152x16 1 := cmpf .olt main_v0 main_v1
  let main_c : IVec S_ 1 := constantI S_ 1 1#1
  let main_v3 : IVec S_ 1 := (fun x v => Host.reduce IntOp.andi x v reducesTo_S16x49152x16_S_d0_1_2 h_S_) main_v2 main_c
  let main_v4 : FVec F S393216 .f32 := Host.absf main_arg3
  let main_cst_0 : FVec F S_ .f32 := constant S_ .f32 0x7F800000#32
  let main_v5 : FVec F S393216 .f32 := broadcastInDim S393216 ![] bcast_S_S393216 main_cst_0
  let main_v6 : IVec S393216 1 := cmpf .olt main_v4 main_v5
  let main_c_1 : IVec S_ 1 := constantI S_ 1 1#1
  let main_v7 : IVec S_ 1 := (fun x v => Host.reduce IntOp.andi x v reducesTo_S393216_S_d0 h_S_) main_v6 main_c_1
  let main_v8 : IVec S_ 1 := andi main_v3 main_v7
  let main_v9 : FVec F S80x32 .f32 := Host.absf main_arg4
  let main_cst_2 : FVec F S_ .f32 := constant S_ .f32 0x7F800000#32
  let main_v10 : FVec F S80x32 .f32 := broadcastInDim S80x32 ![] bcast_S_S80x32 main_cst_2
  let main_v11 : IVec S80x32 1 := cmpf .olt main_v9 main_v10
  let main_c_3 : IVec S_ 1 := constantI S_ 1 1#1
  let main_v12 : IVec S_ 1 := (fun x v => Host.reduce IntOp.andi x v reducesTo_S80x32_S_d0_1 h_S_) main_v11 main_c_3
  let main_v13 : IVec S_ 1 := andi main_v8 main_v12
  let main_v14 : FVec F S1x1x32 .f32 := Host.absf main_arg5
  let main_cst_4 : FVec F S_ .f32 := constant S_ .f32 0x7F800000#32
  let main_v15 : FVec F S1x1x32 .f32 := broadcastInDim S1x1x32 ![] bcast_S_S1x1x32 main_cst_4
  let main_v16 : IVec S1x1x32 1 := cmpf .olt main_v14 main_v15
  fn_part1 (F := F) main_v13 main_v16
-- ==== Kernel.lean ====
abbrev S16x49152x16 : Shape := ⟨3, ![16, 49152, 16]⟩
abbrev S393216 : Shape := ⟨1, ![393216]⟩
abbrev S80x32 : Shape := ⟨2, ![80, 32]⟩
abbrev S1x1x32 : Shape := ⟨3, ![1, 1, 32]⟩
abbrev S49152x16x16 : Shape := ⟨3, ![49152, 16, 16]⟩
abbrev S49152x256 : Shape := ⟨2, ![49152, 256]⟩
abbrev S393216x1 : Shape := ⟨2, ![393216, 1]⟩
abbrev S_ : Shape := ⟨0, ![]⟩
abbrev S393216x256 : Shape := ⟨2, ![393216, 256]⟩
abbrev S1x49152x256 : Shape := ⟨3, ![1, 49152, 256]⟩
abbrev S5x49152x256 : Shape := ⟨3, ![5, 49152, 256]⟩
abbrev S5x49152x16x16 : Shape := ⟨4, ![5, 49152, 16, 16]⟩
abbrev S16x49152x16x5 : Shape := ⟨4, ![16, 49152, 16, 5]⟩
abbrev S786432x80 : Shape := ⟨2, ![786432, 80]⟩
abbrev S1x32 : Shape := ⟨2, ![1, 32]⟩
abbrev S786432x32 : Shape := ⟨2, ![786432, 32]⟩
abbrev S8192x80 : Shape := ⟨2, ![8192, 80]⟩
abbrev S8192x32 : Shape := ⟨2, ![8192, 32]⟩
abbrev S16x49152x32 : Shape := ⟨3, ![16, 49152, 32]⟩

abbrev nBuf : Space → Nat
  | .hbm => 96
  | .vmem => 6
  | .smem => 0
  | _ => 0

abbrev bufTy : (tb : Table) → Fin (tcTables nBuf tb) → BufTy
  | .hbm, ⟨0, _⟩ => ⟨S16x49152x16, .f32⟩
  | .hbm, ⟨1, _⟩ => ⟨S393216, .i32⟩
  | .hbm, ⟨2, _⟩ => ⟨S393216, .i32⟩
  | .hbm, ⟨3, _⟩ => ⟨S393216, .f32⟩
  | .hbm, ⟨4, _⟩ => ⟨S80x32, .f32⟩
  | .hbm, ⟨5, _⟩ => ⟨S1x1x32, .f32⟩
  | .hbm, ⟨6, _⟩ => ⟨S49152x16x16, .f32⟩
  | .hbm, ⟨7, _⟩ => ⟨S49152x256, .f32⟩
  | .hbm, ⟨8, _⟩ => ⟨S393216x1, .f32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x256, .f32⟩
  | .hbm, ⟨18, _⟩ => ⟨S393216x256, .f32⟩
  | .hbm, ⟨19, _⟩ => ⟨S393216x256, .f32⟩
  | .hbm, ⟨20, _⟩ => ⟨S_, .f32⟩
  | .hbm, ⟨21, _⟩ => ⟨S49152x256, .f32⟩
  | .hbm, ⟨22, _⟩ => ⟨S393216x1, .i32⟩
  | .hbm, ⟨23, _⟩ => ⟨S49152x256, .f32⟩
  | .hbm, ⟨24, _⟩ => ⟨S393216x1, .f32⟩
  | .hbm, ⟨25, _⟩ => ⟨S_, .i32⟩
  | .hbm, ⟨26, _⟩ => ⟨S393216, .i32⟩
  | .hbm, ⟨27, _⟩ => ⟨S393216, .i1⟩
  | .hbm, ⟨28, _⟩ => ⟨S_, .i32⟩
  | .hbm, ⟨29, _⟩ => ⟨S393216, .i32⟩
  | .hbm, ⟨30, _⟩ => ⟨S393216, .i32⟩
  | .hbm, ⟨31, _⟩ => ⟨S393216, .i32⟩
  | .hbm, ⟨32, _⟩ => ⟨S393216x1, .i32⟩
  | .hbm, ⟨33, _⟩ => ⟨S393216x256, .f32⟩
  | .hbm, ⟨34, _⟩ => ⟨S393216x256, .f32⟩
  | .hbm, ⟨35, _⟩ => ⟨S393216x256, .f32⟩
  | .hbm, ⟨36, _⟩ => ⟨S_, .f32⟩
  | .hbm, ⟨37, _⟩ => ⟨S49152x256, .f32⟩
  | .hbm, ⟨38, _⟩ => ⟨S393216x1, .i32⟩
  | .hbm, ⟨39, _⟩ => ⟨S49152x256, .f32⟩
  | .hbm, ⟨40, _⟩ => ⟨S_, .f32⟩
  | .hbm, ⟨41, _⟩ => ⟨S49152x256, .f32⟩
  | .hbm, ⟨42, _⟩ => ⟨S49152x256, .f32⟩
  | .hbm, ⟨43, _⟩ => ⟨S49152x256, .f32⟩
  | .hbm, ⟨44, _⟩ => ⟨S393216x1, .f32⟩
  | .hbm, ⟨45, _⟩ => ⟨S_, .i32⟩
  | .hbm, ⟨46, _⟩ => ⟨S393216, .i32⟩
  | .hbm, ⟨47, _⟩ => ⟨S393216, .i1⟩
  | .hbm, ⟨48, _⟩ => ⟨S_, .i32⟩
  | .hbm, ⟨49, _⟩ => ⟨S393216, .i32⟩
  | .hbm, ⟨50, _⟩ => ⟨S393216, .i32⟩
  | .hbm, ⟨51, _⟩ => ⟨S393216, .i32⟩
  | .hbm, ⟨52, _⟩ => ⟨S393216x1, .i32⟩
  | .hbm, ⟨53, _⟩ => ⟨S393216x256, .f32⟩
  | .hbm, ⟨54, _⟩ => ⟨S393216x256, .f32⟩
  | .hbm, ⟨55, _⟩ => ⟨S393216x256, .f32⟩
  | .hbm, ⟨56, _⟩ => ⟨S_, .f32⟩
  | .hbm, ⟨57, _⟩ => ⟨S49152x256, .f32⟩
  | .hbm, ⟨58, _⟩ => ⟨S393216x1, .i32⟩
  | .hbm, ⟨59, _⟩ => ⟨S49152x256, .f32⟩
  | .hbm, ⟨60, _⟩ => ⟨S_, .f32⟩
  | .hbm, ⟨61, _⟩ => ⟨S49152x256, .f32⟩
  | .hbm, ⟨62, _⟩ => ⟨S49152x256, .f32⟩
  | .hbm, ⟨63, _⟩ => ⟨S49152x256, .f32⟩
  | .hbm, ⟨64, _⟩ => ⟨S393216x1, .f32⟩
  | .hbm, ⟨65, _⟩ => ⟨S_, .i32⟩
  | .hbm, ⟨66, _⟩ => ⟨S393216, .i32⟩
  | .hbm, ⟨67, _⟩ => ⟨S393216, .i1⟩
  | .hbm, ⟨68, _⟩ => ⟨S_, .i32⟩
  | .hbm, ⟨69, _⟩ => ⟨S393216, .i32⟩
  | .hbm, ⟨70, _⟩ => ⟨S393216, .i32⟩
  | .hbm, ⟨71, _⟩ => ⟨S393216, .i32⟩
  | .hbm, ⟨72, _⟩ => ⟨S393216x1, .i32⟩
  | .hbm, ⟨73, _⟩ => ⟨S393216x256, .f32⟩
  | .hbm, ⟨74, _⟩ => ⟨S393216x256, .f32⟩
  | .hbm, ⟨75, _⟩ => ⟨S393216x256, .f32⟩
  | .hbm, ⟨76, _⟩ => ⟨S_, .f32⟩
  | .hbm, ⟨77, _⟩ => ⟨S49152x256, .f32⟩
  | .hbm, ⟨78, _⟩ => ⟨S393216x1, .i32⟩
  | .hbm, ⟨79, _⟩ => ⟨S49152x256, .f32⟩
  | .hbm, ⟨80, _⟩ => ⟨S_, .f32⟩
  | .hbm, ⟨81, _⟩ => ⟨S49152x256, .f32⟩
  | .hbm, ⟨82, _⟩ => ⟨S49152x256, .f32⟩
  | .hbm, ⟨83, _⟩ => ⟨S49152x256, .f32⟩
  | .hbm, ⟨84, _⟩ => ⟨S1x49152x256, .f32⟩
  | .hbm, ⟨85, _⟩ => ⟨S1x49152x256, .f32⟩
  | .hbm, ⟨86, _⟩ => ⟨S1x49152x256, .f32⟩
  | .hbm, ⟨87, _⟩ => ⟨S1x49152x256, .f32⟩
  | .hbm, ⟨88, _⟩ => ⟨S1x49152x256, .f32⟩
  | .hbm, ⟨89, _⟩ => ⟨S5x49152x256, .f32⟩
  | .hbm, ⟨90, _⟩ => ⟨S5x49152x16x16, .f32⟩
  | .hbm, ⟨91, _⟩ => ⟨S16x49152x16x5, .f32⟩
  | .hbm, ⟨92, _⟩ => ⟨S786432x80, .f32⟩
  | .hbm, ⟨93, _⟩ => ⟨S1x32, .f32⟩
  | .hbm, ⟨94, _⟩ => ⟨S786432x32, .f32⟩
  | .hbm, ⟨95, _⟩ => ⟨S16x49152x32, .f32⟩
  | .local _ .vmem, ⟨0, _⟩ => ⟨S8192x80, .f32⟩
  | .local _ .vmem, ⟨1, _⟩ => ⟨S8192x80, .f32⟩
  | .local _ .vmem, ⟨2, _⟩ => ⟨S80x32, .f32⟩
  | .local _ .vmem, ⟨3, _⟩ => ⟨S1x32, .f32⟩
  | .local _ .vmem, ⟨4, _⟩ => ⟨S8192x32, .f32⟩
  | .local _ .vmem, ⟨5, _⟩ => ⟨S8192x32, .f32⟩
  | _, _ => ⟨S16x49152x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x49152x16_S49152x16x16_1_2_0 : S16x49152x16.Transposes [1, 2, 0] S49152x16x16
  shapeCasts_S49152x16x16_S49152x256 : S49152x16x16.ShapeCasts S49152x256
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x256_0_1 : S393216x1.BroadcastsInDim S393216x256 (![0, 1] : Fin 2 → Fin S393216x256.rank)
  bcast_S_S49152x256 : S_.BroadcastsInDim S49152x256 (![] : Fin 0 → Fin S49152x256.rank)
  bcast_S49152x256_S1x49152x256_1_2 : S49152x256.BroadcastsInDim S1x49152x256 (![1, 2] : Fin 2 → Fin S1x49152x256.rank)
  concatenates_S1x49152x256_S1x49152x256_S1x49152x256_S1x49152x256_S1x49152x256_S5x49152x256_d0 : Shape.Concatenates [S1x49152x256, S1x49152x256, S1x49152x256, S1x49152x256, S1x49152x256] S5x49152x256 0
  shapeCasts_S5x49152x256_S5x49152x16x16 : S5x49152x256.ShapeCasts S5x49152x16x16
  transposes_S5x49152x16x16_S16x49152x16x5_3_1_2_0 : S5x49152x16x16.Transposes [3, 1, 2, 0] S16x49152x16x5
  shapeCasts_S16x49152x16x5_S786432x80 : S16x49152x16x5.ShapeCasts S786432x80
  shapeCasts_S1x1x32_S1x32 : S1x1x32.ShapeCasts S1x32
  inb_S8192x80_S8192x80_0_0 : ∀ a, (![0, 0] : Fin 2 → Nat) a + S8192x80.size a ≤ S8192x80.size a
  h_S8192x80 : 0 < S8192x80.numel
  shapeCasts_S8192x80_S8192x80 : S8192x80.ShapeCasts S8192x80
  bitsLt_bf16_f32 : FTy.bits .bf16 < FTy.bits .f32
  inb_S80x32_S80x32_0_0 : ∀ a, (![0, 0] : Fin 2 → Nat) a + S80x32.size a ≤ S80x32.size a
  h_S80x32 : 0 < S80x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S8192x32_S8192x32_0_0 : ∀ a, (![0, 0] : Fin 2 → Nat) a + S8192x32.size a ≤ S8192x32.size a
  h_S8192x32 : 0 < S8192x32.numel
  shapeCasts_S786432x32_S16x49152x32 : S786432x32.ShapeCasts S16x49152x32
  gather_S49152x256_S393216x1_S393216x256_1_0_n_n_0_1_1256_wf : GatherDims.WF S49152x256 S393216x1 S393216x256 [1] [0] [] [0] [] 1 ![1, 256]
  scatter_S49152x256_S393216x1_S393216x256_1_0_0_1_wf : ScatterDims.WF S49152x256 S393216x1 S393216x256 [1] [0] [0] 1
  dot_S8192x80_S80x32_S8192x32_1_0_0_1_n_n_wf : DotDims.WF S8192x80 S80x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x80.size a ≤ S786432x80.size a
  hwx0_0 : ∀ i : grid0.Coords, EltTy.bits .f32 = 32 ∨ (Rect.block (s := S786432x80) S8192x80.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x32.size a ≤ S80x32.size a
  hwx0_1 : ∀ i : grid0.Coords, EltTy.bits .f32 = 32 ∨ (Rect.block (s := S80x32) S80x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x32.size a ≤ S786432x32.size a
  hwx0_3 : ∀ i : grid0.Coords, EltTy.bits .f32 = 32 ∨ (Rect.block (s := S786432x32) S8192x32.size (cc0_transform_3 i) (hinb0_3 i)).WholeWords (EltTy.packing .f32)

variable [Facts₀]

def gather_S49152x256_S393216x1_S393216x256_1_0_n_n_0_1_1256 : GatherDims S49152x256 S393216x1 S393216x256 where
  offsetDims := [1]
  collapsedSliceDims := [0]
  operandBatchingDims := []
  startIndicesBatchingDims := []
  startIndexMap := [0]
  indexVectorDim := 1
  sliceSizes := ![1, 256]
  wf := gather_S49152x256_S393216x1_S393216x256_1_0_n_n_0_1_1256_wf
def scatter_S49152x256_S393216x1_S393216x256_1_0_0_1 : ScatterDims S49152x256 S393216x1 S393216x256 where
  updateWindowDims := [1]
  insertedWindowDims := [0]
  scatterDimsToOperandDims := [0]
  indexVectorDim := 1
  wf := scatter_S49152x256_S393216x1_S393216x256_1_0_0_1_wf
def dot_S8192x80_S80x32_S8192x32_1_0_0_1_n_n : DotDims S8192x80 S80x32 S8192x32 where
  lhsContracting := [1]
  rhsContracting := [0]
  lhsNonContracting := [0]
  rhsNonContracting := [1]
  lhsBatch := []
  rhsBatch := []
  wf := dot_S8192x80_S80x32_S8192x32_1_0_0_1_n_n_wf

abbrev win0_0 : Pipeline.Window sig grid0 :=
  Pipeline.Window.ofSpec (Memref.whole main_v71) S8192x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S80x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v72) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v73) S8192x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x49152x16 : Shape := ⟨3, ![16, 49152, 16]⟩
abbrev S393216 : Shape := ⟨1, ![393216]⟩
abbrev S80x32 : Shape := ⟨2, ![80, 32]⟩
abbrev S1x1x32 : Shape := ⟨3, ![1, 1, 32]⟩
abbrev S49152x16x16 : Shape := ⟨3, ![49152, 16, 16]⟩
abbrev S49152x256 : Shape := ⟨2, ![49152, 256]⟩
abbrev S393216x1 : Shape := ⟨2, ![393216, 1]⟩
abbrev S_ : Shape := ⟨0, ![]⟩
abbrev S393216x256 : Shape := ⟨2, ![393216, 256]⟩
abbrev S1x49152x256 : Shape := ⟨3, ![1, 49152, 256]⟩
abbrev S5x49152x256 : Shape := ⟨3, ![5, 49152, 256]⟩
abbrev S5x49152x16x16 : Shape := ⟨4, ![5, 49152, 16, 16]⟩
abbrev S16x49152x16x5 : Shape := ⟨4, ![16, 49152, 16, 5]⟩
abbrev S786432x80 : Shape := ⟨2, ![786432, 80]⟩
abbrev S786432x32 : Shape := ⟨2, ![786432, 32]⟩
abbrev S16x49152x32 : Shape := ⟨3, ![16, 49152, 32]⟩

abbrev nBuf : Space → Nat
  | .hbm => 97
  | .vmem => 0
  | .smem => 0
  | _ => 0

abbrev bufTy : (tb : Table) → Fin (tcTables nBuf tb) → BufTy
  | .hbm, ⟨0, _⟩ => ⟨S16x49152x16, .f32⟩
  | .hbm, ⟨1, _⟩ => ⟨S393216, .i32⟩
  | .hbm, ⟨2, _⟩ => ⟨S393216, .i32⟩
  | .hbm, ⟨3, _⟩ => ⟨S393216, .f32⟩
  | .hbm, ⟨4, _⟩ => ⟨S80x32, .f32⟩
  | .hbm, ⟨5, _⟩ => ⟨S1x1x32, .f32⟩
  | .hbm, ⟨6, _⟩ => ⟨S49152x16x16, .f32⟩
  | .hbm, ⟨7, _⟩ => ⟨S49152x256, .f32⟩
  | .hbm, ⟨8, _⟩ => ⟨S393216x1, .f32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x256, .f32⟩
  | .hbm, ⟨18, _⟩ => ⟨S393216x256, .f32⟩
  | .hbm, ⟨19, _⟩ => ⟨S393216x256, .f32⟩
  | .hbm, ⟨20, _⟩ => ⟨S_, .f32⟩
  | .hbm, ⟨21, _⟩ => ⟨S49152x256, .f32⟩
  | .hbm, ⟨22, _⟩ => ⟨S393216x1, .i32⟩
  | .hbm, ⟨23, _⟩ => ⟨S49152x256, .f32⟩
  | .hbm, ⟨24, _⟩ => ⟨S393216x1, .f32⟩
  | .hbm, ⟨25, _⟩ => ⟨S_, .i32⟩
  | .hbm, ⟨26, _⟩ => ⟨S393216, .i32⟩
  | .hbm, ⟨27, _⟩ => ⟨S393216, .i1⟩
  | .hbm, ⟨28, _⟩ => ⟨S_, .i32⟩
  | .hbm, ⟨29, _⟩ => ⟨S393216, .i32⟩
  | .hbm, ⟨30, _⟩ => ⟨S393216, .i32⟩
  | .hbm, ⟨31, _⟩ => ⟨S393216, .i32⟩
  | .hbm, ⟨32, _⟩ => ⟨S393216x1, .i32⟩
  | .hbm, ⟨33, _⟩ => ⟨S393216x256, .f32⟩
  | .hbm, ⟨34, _⟩ => ⟨S393216x256, .f32⟩
  | .hbm, ⟨35, _⟩ => ⟨S393216x256, .f32⟩
  | .hbm, ⟨36, _⟩ => ⟨S_, .f32⟩
  | .hbm, ⟨37, _⟩ => ⟨S49152x256, .f32⟩
  | .hbm, ⟨38, _⟩ => ⟨S393216x1, .i32⟩
  | .hbm, ⟨39, _⟩ => ⟨S49152x256, .f32⟩
  | .hbm, ⟨40, _⟩ => ⟨S_, .f32⟩
  | .hbm, ⟨41, _⟩ => ⟨S49152x256, .f32⟩
  | .hbm, ⟨42, _⟩ => ⟨S49152x256, .f32⟩
  | .hbm, ⟨43, _⟩ => ⟨S49152x256, .f32⟩
  | .hbm, ⟨44, _⟩ => ⟨S393216x1, .f32⟩
  | .hbm, ⟨45, _⟩ => ⟨S_, .i32⟩
  | .hbm, ⟨46, _⟩ => ⟨S393216, .i32⟩
  | .hbm, ⟨47, _⟩ => ⟨S393216, .i1⟩
  | .hbm, ⟨48, _⟩ => ⟨S_, .i32⟩
  | .hbm, ⟨49, _⟩ => ⟨S393216, .i32⟩
  | .hbm, ⟨50, _⟩ => ⟨S393216, .i32⟩
  | .hbm, ⟨51, _⟩ => ⟨S393216, .i32⟩
  | .hbm, ⟨52, _⟩ => ⟨S393216x1, .i32⟩
  | .hbm, ⟨53, _⟩ => ⟨S393216x256, .f32⟩
  | .hbm, ⟨54, _⟩ => ⟨S393216x256, .f32⟩
  | .hbm, ⟨55, _⟩ => ⟨S393216x256, .f32⟩
  | .hbm, ⟨56, _⟩ => ⟨S_, .f32⟩
  | .hbm, ⟨57, _⟩ => ⟨S49152x256, .f32⟩
  | .hbm, ⟨58, _⟩ => ⟨S393216x1, .i32⟩
  | .hbm, ⟨59, _⟩ => ⟨S49152x256, .f32⟩
  | .hbm, ⟨60, _⟩ => ⟨S_, .f32⟩
  | .hbm, ⟨61, _⟩ => ⟨S49152x256, .f32⟩
  | .hbm, ⟨62, _⟩ => ⟨S49152x256, .f32⟩
  | .hbm, ⟨63, _⟩ => ⟨S49152x256, .f32⟩
  | .hbm, ⟨64, _⟩ => ⟨S393216x1, .f32⟩
  | .hbm, ⟨65, _⟩ => ⟨S_, .i32⟩
  | .hbm, ⟨66, _⟩ => ⟨S393216, .i32⟩
  | .hbm, ⟨67, _⟩ => ⟨S393216, .i1⟩
  | .hbm, ⟨68, _⟩ => ⟨S_, .i32⟩
  | .hbm, ⟨69, _⟩ => ⟨S393216, .i32⟩
  | .hbm, ⟨70, _⟩ => ⟨S393216, .i32⟩
  | .hbm, ⟨71, _⟩ => ⟨S393216, .i32⟩
  | .hbm, ⟨72, _⟩ => ⟨S393216x1, .i32⟩
  | .hbm, ⟨73, _⟩ => ⟨S393216x256, .f32⟩
  | .hbm, ⟨74, _⟩ => ⟨S393216x256, .f32⟩
  | .hbm, ⟨75, _⟩ => ⟨S393216x256, .f32⟩
  | .hbm, ⟨76, _⟩ => ⟨S_, .f32⟩
  | .hbm, ⟨77, _⟩ => ⟨S49152x256, .f32⟩
  | .hbm, ⟨78, _⟩ => ⟨S393216x1, .i32⟩
  | .hbm, ⟨79, _⟩ => ⟨S49152x256, .f32⟩
  | .hbm, ⟨80, _⟩ => ⟨S_, .f32⟩
  | .hbm, ⟨81, _⟩ => ⟨S49152x256, .f32⟩
  | .hbm, ⟨82, _⟩ => ⟨S49152x256, .f32⟩
  | .hbm, ⟨83, _⟩ => ⟨S49152x256, .f32⟩
  | .hbm, ⟨84, _⟩ => ⟨S1x49152x256, .f32⟩
  | .hbm, ⟨85, _⟩ => ⟨S1x49152x256, .f32⟩
  | .hbm, ⟨86, _⟩ => ⟨S1x49152x256, .f32⟩
  | .hbm, ⟨87, _⟩ => ⟨S1x49152x256, .f32⟩
  | .hbm, ⟨88, _⟩ => ⟨S1x49152x256, .f32⟩
  | .hbm, ⟨89, _⟩ => ⟨S5x49152x256, .f32⟩
  | .hbm, ⟨90, _⟩ => ⟨S5x49152x16x16, .f32⟩
  | .hbm, ⟨91, _⟩ => ⟨S16x49152x16x5, .f32⟩
  | .hbm, ⟨92, _⟩ => ⟨S786432x80, .f32⟩
  | .hbm, ⟨93, _⟩ => ⟨S786432x32, .f32⟩
  | .hbm, ⟨94, _⟩ => ⟨S16x49152x32, .f32⟩
  | .hbm, ⟨95, _⟩ => ⟨S16x49152x32, .f32⟩
  | .hbm, ⟨96, _⟩ => ⟨S16x49152x32, .f32⟩
  | _, _ => ⟨S16x49152x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]

class Facts₀ : Prop where
  transposes_S16x49152x16_S49152x16x16_1_2_0 : S16x49152x16.Transposes [1, 2, 0] S49152x16x16
  shapeCasts_S49152x16x16_S49152x256 : S49152x16x16.ShapeCasts S49152x256
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x256_0_1 : S393216x1.BroadcastsInDim S393216x256 (![0, 1] : Fin 2 → Fin S393216x256.rank)
  bcast_S_S49152x256 : S_.BroadcastsInDim S49152x256 (![] : Fin 0 → Fin S49152x256.rank)
  bcast_S49152x256_S1x49152x256_1_2 : S49152x256.BroadcastsInDim S1x49152x256 (![1, 2] : Fin 2 → Fin S1x49152x256.rank)
  concatenates_S1x49152x256_S1x49152x256_S1x49152x256_S1x49152x256_S1x49152x256_S5x49152x256_d0 : Shape.Concatenates [S1x49152x256, S1x49152x256, S1x49152x256, S1x49152x256, S1x49152x256] S5x49152x256 0
  shapeCasts_S5x49152x256_S5x49152x16x16 : S5x49152x256.ShapeCasts S5x49152x16x16
  transposes_S5x49152x16x16_S16x49152x16x5_3_1_2_0 : S5x49152x16x16.Transposes [3, 1, 2, 0] S16x49152x16x5
  shapeCasts_S16x49152x16x5_S786432x80 : S16x49152x16x5.ShapeCasts S786432x80
  shapeCasts_S786432x32_S16x49152x32 : S786432x32.ShapeCasts S16x49152x32
  bcast_S1x1x32_S16x49152x32_0_1_2 : S1x1x32.BroadcastsInDim S16x49152x32 (![0, 1, 2] : Fin 3 → Fin S16x49152x32.rank)
  gather_S49152x256_S393216x1_S393216x256_1_0_n_n_0_1_1256_wf : GatherDims.WF S49152x256 S393216x1 S393216x256 [1] [0] [] [0] [] 1 ![1, 256]
  scatter_S49152x256_S393216x1_S393216x256_1_0_0_1_wf : ScatterDims.WF S49152x256 S393216x1 S393216x256 [1] [0] [0] 1
  dot_S786432x80_S80x32_S786432x32_1_0_0_1_n_n_wf : DotDims.WF S786432x80 S80x32 S786432x32 [1] [0] [0] [1] [] []

variable [Facts₀]

def gather_S49152x256_S393216x1_S393216x256_1_0_n_n_0_1_1256 : GatherDims S49152x256 S393216x1 S393216x256 where
  offsetDims := [1]
  collapsedSliceDims := [0]
  operandBatchingDims := []
  startIndicesBatchingDims := []
  startIndexMap := [0]
  indexVectorDim := 1
  sliceSizes := ![1, 256]
  wf := gather_S49152x256_S393216x1_S393216x256_1_0_n_n_0_1_1256_wf
def scatter_S49152x256_S393216x1_S393216x256_1_0_0_1 : ScatterDims S49152x256 S393216x1 S393216x256 where
  updateWindowDims := [1]
  insertedWindowDims := [0]
  scatterDimsToOperandDims := [0]
  indexVectorDim := 1
  wf := scatter_S49152x256_S393216x1_S393216x256_1_0_0_1_wf
def dot_S786432x80_S80x32_S786432x32_1_0_0_1_n_n : DotDims S786432x80 S80x32 S786432x32 where
  lhsContracting := [1]
  rhsContracting := [0]
  lhsNonContracting := [0]
  rhsNonContracting := [1]
  lhsBatch := []
  rhsBatch := []
  wf := dot_S786432x80_S80x32_S786432x32_1_0_0_1_n_n_wf

class Facts : Prop extends Facts₀ where

variable [Facts]
-- ==== Proof.FrameK.lean ====
/-
  The frame of the projection program, at any float instance.

  @main is 88 host operations (the Chebyshev recurrence: four gather / scatter-add rounds, the five polynomial
  terms stacked and re-laid as one [786432, 80] matrix; the bias re-laid as [1, 32]), ONE pipelined region on a
  grid of 96 points, and one host line after it (the [786432, 32] result re-laid as [16, 49152, 32]).
  At grid point t the region hands the body rows 8192·t … 8192·t + 8191 of the matrix, the whole [80, 32] weight
  and the [1, 32] bias, and writes back rows 8192·t … of the result. The body loads the three blocks, multiplies
  the row block by the weight into a zero accumulator, adds the bias row to every row and stores the whole
  [8192, 32] block; it keeps nothing between points.

  Proved here: what the body leaves in the output block as a function of the three input blocks (`rowsOut`), the
  body's triple, the per-point proof data, the run of @main to the library's frame post (every array of the
  pipeline at what the write-backs make of it, every other buffer as the last host line leaves it), and from it
  that the six argument arrays end as they began.
-/
import proofs.«170569_j26714696581338_1_alg».proof.Proof.Gen.Kernel.Launch
import proofs.«170569_j26714696581338_1_alg».proof.Proof.Gen.Kernel.Skeleton
import proofs.«170569_j26714696581338_1_alg».proof.Proof.Gen.Kernel.Points
import Idealize.ShloMosaic.Lib.Pipeline.FrameBody
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents pushed through the 88 host
    operations before it. -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

/-- No host operation allocates. -/
theorem prefix_allocates_nothing : (hostOps0 : List (HloOp τ sig (Elt F))).Forall fun op => op.fresh = ∅ := by
  simp only [List.Forall]; repeat' constructor
theorem tail_allocates_nothing : (hostOps1 : List (HloOp τ sig (Elt F))).Forall fun op => op.fresh = ∅ := by
  simp only [List.Forall]; repeat' constructor

/-- @main is the host prefix, the region, the host tail: it reduces to the region continued by the tail. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-- The tail's one operation touches unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp tail_allocates_nothing) op hop
/-- and writes the re-laid result only, which is none of the pipeline's four arrays. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- Every host operation writes its own result buffer only; none of them is an argument. -/
local macro "prefix_never_writes" : tactic => `(tactic| (
  simp only [hostOps0, List.flatten_cons, List.flatten_nil, List.append_nil, List.cons_append,
    List.nil_append, List.Forall, StableHlo.nullary_writes, StableHlo.unary_writes, StableHlo.binary_writes,
    StableHlo.ternary_writes, StableHlo.nary_writes, StableHlo.reshape_writes, Finset.mem_singleton]
  repeat' apply And.intro
  all_goals exact StableHlo.devRef_ne_of_ne (by decide)))
local macro "tail_never_writes" : tactic => `(tactic| (
  simp only [hostOps1, List.flatten_cons, List.flatten_nil, List.append_nil, List.cons_append,
    List.nil_append, List.Forall, StableHlo.reshape_writes, Finset.mem_singleton]
  repeat' apply And.intro
  all_goals exact StableHlo.devRef_ne_of_ne (by decide)))

theorem entry_arg0 (c : Dev nD) : entry m c main_arg0 = m ((c : Thread nD τ).loc main_arg0) :=
  StableHlo.after_of_forall_not_mem (b := Proc.devRef .tc main_arg0) _ _ (List.forall_iff_forall_mem.mp (by prefix_never_writes))
theorem entry_arg1 (c : Dev nD) : entry m c main_arg1 = m ((c : Thread nD τ).loc main_arg1) :=
  StableHlo.after_of_forall_not_mem (b := Proc.devRef .tc main_arg1) _ _ (List.forall_iff_forall_mem.mp (by prefix_never_writes))
theorem entry_arg2 (c : Dev nD) : entry m c main_arg2 = m ((c : Thread nD τ).loc main_arg2) :=
  StableHlo.after_of_forall_not_mem (b := Proc.devRef .tc main_arg2) _ _ (List.forall_iff_forall_mem.mp (by prefix_never_writes))
theorem entry_arg3 (c : Dev nD) : entry m c main_arg3 = m ((c : Thread nD τ).loc main_arg3) :=
  StableHlo.after_of_forall_not_mem (b := Proc.devRef .tc main_arg3) _ _ (List.forall_iff_forall_mem.mp (by prefix_never_writes))
theorem entry_arg4 (c : Dev nD) : entry m c main_arg4 = m ((c : Thread nD τ).loc main_arg4) :=
  StableHlo.after_of_forall_not_mem (b := Proc.devRef .tc main_arg4) _ _ (List.forall_iff_forall_mem.mp (by prefix_never_writes))
theorem entry_arg5 (c : Dev nD) : entry m c main_arg5 = m ((c : Thread nD τ).loc main_arg5) :=
  StableHlo.after_of_forall_not_mem (b := Proc.devRef .tc main_arg5) _ _ (List.forall_iff_forall_mem.mp (by prefix_never_writes))

/-- An argument that is no array of the pipeline ends, after the tail, as launched: the tail does not write it, the
    write-backs do not touch it, the prefix did not write it. -/
theorem exit_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by tail_never_writes)),
    Pipeline.withArrays_of_ne _ c (entry0 m c) _ main_arg0 (by exact (by decide : ∀ w, Pipeline.arrRef spec0 w ≠ main_arg0))]
  exact entry_arg0 m c
theorem exit_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by tail_never_writes)),
    Pipeline.withArrays_of_ne _ c (entry0 m c) _ main_arg1 (by exact (by decide : ∀ w, Pipeline.arrRef spec0 w ≠ main_arg1))]
  exact entry_arg1 m c
theorem exit_arg2 (dats : (p : Fin _) → (c : Dev nD) → Dat τ (Elt F) Unit ℕ (UR sig nD τ) ℕ (cfgs p) c) (c : Dev nD) :
    Pipeline.afterTail₀ cfgs dats 0 (entry0 m) [hostOps1] c main_arg2 = m ((c : Thread nD τ).loc main_arg2) := by
  unfold Pipeline.afterTail₀
  rw [StableHlo.after_of_forall_not_mem (b := Proc.devRef .tc main_arg2) _ _ (List.forall_iff_forall_mem.mp (by tail_never_writes)),
    Pipeline.withArrays_of_ne _ c (entry0 m c) _ main_arg2 (by exact (by decide : ∀ w, Pipeline.arrRef spec0 w ≠ main_arg2))]
  exact entry_arg2 m c
theorem exit_arg3 (dats : (p : Fin _) → (c : Dev nD) → Dat τ (Elt F) Unit ℕ (UR sig nD τ) ℕ (cfgs p) c) (c : Dev nD) :
    Pipeline.afterTail₀ cfgs dats 0 (entry0 m) [hostOps1] c main_arg3 = m ((c : Thread nD τ).loc main_arg3) := by
  unfold Pipeline.afterTail₀
  rw [StableHlo.after_of_forall_not_mem (b := Proc.devRef .tc main_arg3) _ _ (List.forall_iff_forall_mem.mp (by tail_never_writes)),
    Pipeline.withArrays_of_ne _ c (entry0 m c) _ main_arg3 (by exact (by decide : ∀ w, Pipeline.arrRef spec0 w ≠ main_arg3))]
  exact entry_arg3 m c
theorem exit_arg5 (dats : (p : Fin _) → (c : Dev nD) → Dat τ (Elt F) Unit ℕ (UR sig nD τ) ℕ (cfgs p) c) (c : Dev nD) :
    Pipeline.afterTail₀ cfgs dats 0 (entry0 m) [hostOps1] c main_arg5 = m ((c : Thread nD τ).loc main_arg5) := by
  unfold Pipeline.afterTail₀
  rw [StableHlo.after_of_forall_not_mem (b := Proc.devRef .tc main_arg5) _ _ (List.forall_iff_forall_mem.mp (by tail_never_writes)),
    Pipeline.withArrays_of_ne _ c (entry0 m c) _ main_arg5 (by exact (by decide : ∀ w, Pipeline.arrRef spec0 w ≠ main_arg5))]
  exact entry_arg5 m c

/-! ## The blocks the region hands the body -/

/-- Window `w`'s block at point `t`, read off its array as the region finds it: for the matrix, rows
    8192·t … 8192·t + 8191; for the weight and the bias, the whole array at every point. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, whether the pipeline fetched it there
    or not (the weight and the bias are fetched once: their block index never moves), for any proof data whose array
    is the entry contents and whose body leaves the block in place. -/
theorem rows_found {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem weight_found {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem bias_found {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- In a final state satisfying the library's frame post: the weight is an array of the pipeline that is only read (it
    ends at its entry contents, which are the launch contents); the other five arguments are no array of the pipeline
    and the tail leaves them alone. -/
theorem args_kept_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F))
    (h : Pipeline.FramePost cfgs dats 0 (Pipeline.afterTail₀ cfgs dats 0 (entry0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c),
     ((h c).1 1).trans (((dats 0 c).arrAt_in 1 rfl _).trans ((hA c 1).trans (entry_arg4 m c))),
     ((h c).2 main_arg5 (Pipeline.mem_restRefs_of main_arg5 (by decide) (by decide))).trans (exit_arg5 m dats c)⟩

/-- So a run to the frame post is a run after which the six arguments are as launched. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept_post m dats hA r h c) h

/-! ## What the body leaves in the output block -/

abbrev rectRows : Rect S8192x80 := Rect.unit (s := S8192x80) ![0, 0] S8192x80.size inb_S8192x80_S8192x80_0_0
abbrev rectWeight : Rect S80x32 := Rect.unit (s := S80x32) ![0, 0] S80x32.size inb_S80x32_S80x32_0_0
abbrev rectBias : Rect S1x32 := Rect.unit (s := S1x32) ![0, 0] S1x32.size inb_S1x32_S1x32_0_0
abbrev rectOut : Rect S8192x32 := Rect.unit (s := S8192x32) ![0, 0] S8192x32.size inb_S8192x32_S8192x32_0_0

/-- The output block after the body, from the three input blocks: its one store, of the product plus the bias row,
    over the whole block. -/
def rowsOut (x : Vec F S8192x80 .f32) (w : Vec F S80x32 .f32) (b : Vec F S1x32 .f32) : Vec F S8192x32 .f32 :=
  View.canon [⟨rectOut, k0_pay1 (View.ld x rectRows) (View.ld w rectWeight) (View.ld b rectBias)⟩]

/-- The one store covers the block. -/
theorem out_covered (p0 : Vec F S8192x32 .f32) (y : S8192x32.Idx) :
    ∃ pc ∈ ([⟨rectOut, p0⟩] : List (View.Piece (Elt F) S8192x32 .f32)), y ∈ pc.1.set :=
  View.cover_of_tiled [⟨rectOut, p0⟩] S8192x32.size (by rfl) y

/-! ## The body's triple -/

set_option maxHeartbeats 1000000 in
/-- On whole staging buffers, the inputs' at contents `x`, `w`, `b` and the output's at anything, the body runs to
    its continuation with the inputs' as they were and the output's at `rowsOut x w b`. (The body also loads the
    output block before it stores it; the loaded value is used nowhere.) -/
theorem body_triple (c : Dev nD) (E : Set ℕ) (i : grid0.Coords)
    (arg1 : Memref sig .tc .vmem S8192x80 .f32) (harg1 : arg1.IsWhole) (arg2 : Memref sig .tc .vmem S80x32 .f32) (harg2 : arg2.IsWhole)
    (arg3 : Memref sig .tc .vmem S1x32 .f32) (harg3 : arg3.IsWhole) (arg4 : Memref sig .tc .vmem S8192x32 .f32) (harg4 : arg4.IsWhole)
    (x : Vec F S8192x80 .f32) (w : Vec F S80x32 .f32) (b : Vec F S1x32 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (rowsOut x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out_covered _)

/-! ## The pipeline's proof data -/

/-- On core `c`: the arrays as the region finds them; after the body at point `t` each input's buffer still at its
    block and the output's at `rowsOut` of the three blocks; the class invariant (the scoped rest and the generator
    register, untouched); nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => rowsOut (blockAt m c 0 t) (blockAt m c 1 t) (blockAt m c 2 t)
  Φ _ := Pipeline.ΦA spec0 c
  q _ := fullShare
  owed _ := 0

theorem arrays_at_entry (c : Dev nD) (w : Fin cfg0.W) : (dats m 0 c).A w = entry m c (Pipeline.arrRef spec0 w) := by
  dsimp only [dats]

theorem after_rows (c : Dev nD) (t : Fin cfg0.N) : (dats m 0 c).after 0 t = blockAt m c 0 t := by dsimp only [dats]
theorem after_weight (c : Dev nD) (t : Fin cfg0.N) : (dats m 0 c).after 1 t = blockAt m c 1 t := by dsimp only [dats]
theorem after_bias (c : Dev nD) (t : Fin cfg0.N) : (dats m 0 c).after 2 t = blockAt m c 2 t := by dsimp only [dats]
theorem after_out (c : Dev nD) (t : Fin cfg0.N) :
    (dats m 0 c).after 3 t = rowsOut (blockAt m c 0 t) (blockAt m c 1 t) (blockAt m c 2 t) := by dsimp only [dats]

theorem before_rows (c : Dev nD) (t : Fin cfg0.N) (d) : (dats m 0 c).before 0 t d = blockAt m c 0 t :=
  rows_found m (dats m 0 c) (arrays_at_entry m c 0) (after_rows m c) t d
theorem before_weight (c : Dev nD) (t : Fin cfg0.N) (d) : (dats m 0 c).before 1 t d = blockAt m c 1 t :=
  weight_found m (dats m 0 c) (arrays_at_entry m c 1) (after_weight m c) t d
theorem before_bias (c : Dev nD) (t : Fin cfg0.N) (d) : (dats m 0 c).before 2 t d = blockAt m c 2 t :=
  bias_found m (dats m 0 c) (arrays_at_entry m c 2) (after_bias m c) t d

/-! ## The body obligation, at a generic point -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and the core's
    debts pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weight, before_bias]
  rw [show (dats m 0 c).Φ t.succ = (dats m 0 c).Φ t.castSucc from rfl,
    show (dats m 0 c).owesAt () t.succ = (dats m 0 c).owesAt () t.castSucc from rfl,
    after_rows, after_weight, after_bias, after_out]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates; at the end every array of the pipeline holds what the
    write-backs make of the per-point data, and every other unscoped buffer what the tail leaves. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps_arrays)
    (hmain := main_around m Variants.none) (hA := arrays_at_entry m) (hΦ := fun _ _ => rfl)

/-- The frame: @main runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  args_kept_of m ρ (dats m) (arrays_at_entry m) (run_main m ρ)

end Cert.Kernel.Fr

end
-- ==== Proof.FrameKI.lean ====
/-
  The frame of the projection program, at any float instance.

  @main is 88 host operations (the Chebyshev recurrence: four gather / scatter-add rounds, the five polynomial
  terms stacked and re-laid as one [786432, 80] matrix; the bias re-laid as [1, 32]), ONE pipelined region on a
  grid of 96 points, and one host line after it (the [786432, 32] result re-laid as [16, 49152, 32]).
  At grid point t the region hands the body rows 8192·t … 8192·t + 8191 of the matrix, the whole [80, 32] weight
  and the [1, 32] bias, and writes back rows 8192·t … of the result. The body loads the three blocks, multiplies
  the row block by the weight into a zero accumulator, adds the bias row to every row and stores the whole
  [8192, 32] block; it keeps nothing between points.

  Proved here: what the body leaves in the output block as a function of the three input blocks (`rowsOut`), the
  body's triple, the per-point proof data, the run of @main to the library's frame post (every array of the
  pipeline at what the write-backs make of it, every other buffer as the last host line leaves it), and from it
  that the six argument arrays end as they began.
-/
import proofs.«170569_j26714696581338_1_alg».proof.Proof.Gen.KernelIdeal.Launch
import proofs.«170569_j26714696581338_1_alg».proof.Proof.Gen.KernelIdeal.Skeleton
import proofs.«170569_j26714696581338_1_alg».proof.Proof.Gen.KernelIdeal.Points
import Idealize.ShloMosaic.Lib.Pipeline.FrameBody
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents pushed through the 88 host
    operations before it. -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

/-- No host operation allocates. -/
theorem prefix_allocates_nothing : (hostOps0 : List (HloOp τ sig (Elt F))).Forall fun op => op.fresh = ∅ := by
  simp only [List.Forall]; repeat' constructor
theorem tail_allocates_nothing : (hostOps1 : List (HloOp τ sig (Elt F))).Forall fun op => op.fresh = ∅ := by
  simp only [List.Forall]; repeat' constructor

/-- @main is the host prefix, the region, the host tail: it reduces to the region continued by the tail. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-- The tail's one operation touches unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp tail_allocates_nothing) op hop
/-- and writes the re-laid result only, which is none of the pipeline's four arrays. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- Every host operation writes its own result buffer only; none of them is an argument. -/
local macro "prefix_never_writes" : tactic => `(tactic| (
  simp only [hostOps0, List.flatten_cons, List.flatten_nil, List.append_nil, List.cons_append,
    List.nil_append, List.Forall, StableHlo.nullary_writes, StableHlo.unary_writes, StableHlo.binary_writes,
    StableHlo.ternary_writes, StableHlo.nary_writes, StableHlo.reshape_writes, Finset.mem_singleton]
  repeat' apply And.intro
  all_goals exact StableHlo.devRef_ne_of_ne (by decide)))
local macro "tail_never_writes" : tactic => `(tactic| (
  simp only [hostOps1, List.flatten_cons, List.flatten_nil, List.append_nil, List.cons_append,
    List.nil_append, List.Forall, StableHlo.reshape_writes, Finset.mem_singleton]
  repeat' apply And.intro
  all_goals exact StableHlo.devRef_ne_of_ne (by decide)))

theorem entry_arg0 (c : Dev nD) : entry m c main_arg0 = m ((c : Thread nD τ).loc main_arg0) :=
  StableHlo.after_of_forall_not_mem (b := Proc.devRef .tc main_arg0) _ _ (List.forall_iff_forall_mem.mp (by prefix_never_writes))
theorem entry_arg1 (c : Dev nD) : entry m c main_arg1 = m ((c : Thread nD τ).loc main_arg1) :=
  StableHlo.after_of_forall_not_mem (b := Proc.devRef .tc main_arg1) _ _ (List.forall_iff_forall_mem.mp (by prefix_never_writes))
theorem entry_arg2 (c : Dev nD) : entry m c main_arg2 = m ((c : Thread nD τ).loc main_arg2) :=
  StableHlo.after_of_forall_not_mem (b := Proc.devRef .tc main_arg2) _ _ (List.forall_iff_forall_mem.mp (by prefix_never_writes))
theorem entry_arg3 (c : Dev nD) : entry m c main_arg3 = m ((c : Thread nD τ).loc main_arg3) :=
  StableHlo.after_of_forall_not_mem (b := Proc.devRef .tc main_arg3) _ _ (List.forall_iff_forall_mem.mp (by prefix_never_writes))
theorem entry_arg4 (c : Dev nD) : entry m c main_arg4 = m ((c : Thread nD τ).loc main_arg4) :=
  StableHlo.after_of_forall_not_mem (b := Proc.devRef .tc main_arg4) _ _ (List.forall_iff_forall_mem.mp (by prefix_never_writes))
theorem entry_arg5 (c : Dev nD) : entry m c main_arg5 = m ((c : Thread nD τ).loc main_arg5) :=
  StableHlo.after_of_forall_not_mem (b := Proc.devRef .tc main_arg5) _ _ (List.forall_iff_forall_mem.mp (by prefix_never_writes))

/-- An argument that is no array of the pipeline ends, after the tail, as launched: the tail does not write it, the
    write-backs do not touch it, the prefix did not write it. -/
theorem exit_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by tail_never_writes)),
    Pipeline.withArrays_of_ne _ c (entry0 m c) _ main_arg0 (by exact (by decide : ∀ w, Pipeline.arrRef spec0 w ≠ main_arg0))]
  exact entry_arg0 m c
theorem exit_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by tail_never_writes)),
    Pipeline.withArrays_of_ne _ c (entry0 m c) _ main_arg1 (by exact (by decide : ∀ w, Pipeline.arrRef spec0 w ≠ main_arg1))]
  exact entry_arg1 m c
theorem exit_arg2 (dats : (p : Fin _) → (c : Dev nD) → Dat τ (Elt F) Unit ℕ (UR sig nD τ) ℕ (cfgs p) c) (c : Dev nD) :
    Pipeline.afterTail₀ cfgs dats 0 (entry0 m) [hostOps1] c main_arg2 = m ((c : Thread nD τ).loc main_arg2) := by
  unfold Pipeline.afterTail₀
  rw [StableHlo.after_of_forall_not_mem (b := Proc.devRef .tc main_arg2) _ _ (List.forall_iff_forall_mem.mp (by tail_never_writes)),
    Pipeline.withArrays_of_ne _ c (entry0 m c) _ main_arg2 (by exact (by decide : ∀ w, Pipeline.arrRef spec0 w ≠ main_arg2))]
  exact entry_arg2 m c
theorem exit_arg3 (dats : (p : Fin _) → (c : Dev nD) → Dat τ (Elt F) Unit ℕ (UR sig nD τ) ℕ (cfgs p) c) (c : Dev nD) :
    Pipeline.afterTail₀ cfgs dats 0 (entry0 m) [hostOps1] c main_arg3 = m ((c : Thread nD τ).loc main_arg3) := by
  unfold Pipeline.afterTail₀
  rw [StableHlo.after_of_forall_not_mem (b := Proc.devRef .tc main_arg3) _ _ (List.forall_iff_forall_mem.mp (by tail_never_writes)),
    Pipeline.withArrays_of_ne _ c (entry0 m c) _ main_arg3 (by exact (by decide : ∀ w, Pipeline.arrRef spec0 w ≠ main_arg3))]
  exact entry_arg3 m c
theorem exit_arg5 (dats : (p : Fin _) → (c : Dev nD) → Dat τ (Elt F) Unit ℕ (UR sig nD τ) ℕ (cfgs p) c) (c : Dev nD) :
    Pipeline.afterTail₀ cfgs dats 0 (entry0 m) [hostOps1] c main_arg5 = m ((c : Thread nD τ).loc main_arg5) := by
  unfold Pipeline.afterTail₀
  rw [StableHlo.after_of_forall_not_mem (b := Proc.devRef .tc main_arg5) _ _ (List.forall_iff_forall_mem.mp (by tail_never_writes)),
    Pipeline.withArrays_of_ne _ c (entry0 m c) _ main_arg5 (by exact (by decide : ∀ w, Pipeline.arrRef spec0 w ≠ main_arg5))]
  exact entry_arg5 m c

/-! ## The blocks the region hands the body -/

/-- Window `w`'s block at point `t`, read off its array as the region finds it: for the matrix, rows
    8192·t … 8192·t + 8191; for the weight and the bias, the whole array at every point. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, whether the pipeline fetched it there
    or not (the weight and the bias are fetched once: their block index never moves), for any proof data whose array
    is the entry contents and whose body leaves the block in place. -/
theorem rows_found {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem weight_found {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem bias_found {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- In a final state satisfying the library's frame post: the weight is an array of the pipeline that is only read (it
    ends at its entry contents, which are the launch contents); the other five arguments are no array of the pipeline
    and the tail leaves them alone. -/
theorem args_kept_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F))
    (h : Pipeline.FramePost cfgs dats 0 (Pipeline.afterTail₀ cfgs dats 0 (entry0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c),
     ((h c).1 1).trans (((dats 0 c).arrAt_in 1 rfl _).trans ((hA c 1).trans (entry_arg4 m c))),
     ((h c).2 main_arg5 (Pipeline.mem_restRefs_of main_arg5 (by decide) (by decide))).trans (exit_arg5 m dats c)⟩

/-- So a run to the frame post is a run after which the six arguments are as launched. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept_post m dats hA r h c) h

/-! ## What the body leaves in the output block -/

abbrev rectRows : Rect S8192x80 := Rect.unit (s := S8192x80) ![0, 0] S8192x80.size inb_S8192x80_S8192x80_0_0
abbrev rectWeight : Rect S80x32 := Rect.unit (s := S80x32) ![0, 0] S80x32.size inb_S80x32_S80x32_0_0
abbrev rectBias : Rect S1x32 := Rect.unit (s := S1x32) ![0, 0] S1x32.size inb_S1x32_S1x32_0_0
abbrev rectOut : Rect S8192x32 := Rect.unit (s := S8192x32) ![0, 0] S8192x32.size inb_S8192x32_S8192x32_0_0

/-- The output block after the body, from the three input blocks: its one store, of the product plus the bias row,
    over the whole block. -/
def rowsOut (x : Vec F S8192x80 .f32) (w : Vec F S80x32 .f32) (b : Vec F S1x32 .f32) : Vec F S8192x32 .f32 :=
  View.canon [⟨rectOut, k0_pay1 (View.ld x rectRows) (View.ld w rectWeight) (View.ld b rectBias)⟩]

/-- The one store covers the block. -/
theorem out_covered (p0 : Vec F S8192x32 .f32) (y : S8192x32.Idx) :
    ∃ pc ∈ ([⟨rectOut, p0⟩] : List (View.Piece (Elt F) S8192x32 .f32)), y ∈ pc.1.set :=
  View.cover_of_tiled [⟨rectOut, p0⟩] S8192x32.size (by rfl) y

/-! ## The body's triple -/

set_option maxHeartbeats 1000000 in
/-- On whole staging buffers, the inputs' at contents `x`, `w`, `b` and the output's at anything, the body runs to
    its continuation with the inputs' as they were and the output's at `rowsOut x w b`. (The body also loads the
    output block before it stores it; the loaded value is used nowhere.) -/
theorem body_triple (c : Dev nD) (E : Set ℕ) (i : grid0.Coords)
    (arg1 : Memref sig .tc .vmem S8192x80 .f32) (harg1 : arg1.IsWhole) (arg2 : Memref sig .tc .vmem S80x32 .f32) (harg2 : arg2.IsWhole)
    (arg3 : Memref sig .tc .vmem S1x32 .f32) (harg3 : arg3.IsWhole) (arg4 : Memref sig .tc .vmem S8192x32 .f32) (harg4 : arg4.IsWhole)
    (x : Vec F S8192x80 .f32) (w : Vec F S80x32 .f32) (b : Vec F S1x32 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (rowsOut x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out_covered _)

/-! ## The pipeline's proof data -/

/-- On core `c`: the arrays as the region finds them; after the body at point `t` each input's buffer still at its
    block and the output's at `rowsOut` of the three blocks; the class invariant (the scoped rest and the generator
    register, untouched); nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => rowsOut (blockAt m c 0 t) (blockAt m c 1 t) (blockAt m c 2 t)
  Φ _ := Pipeline.ΦA spec0 c
  q _ := fullShare
  owed _ := 0

theorem arrays_at_entry (c : Dev nD) (w : Fin cfg0.W) : (dats m 0 c).A w = entry m c (Pipeline.arrRef spec0 w) := by
  dsimp only [dats]

theorem after_rows (c : Dev nD) (t : Fin cfg0.N) : (dats m 0 c).after 0 t = blockAt m c 0 t := by dsimp only [dats]
theorem after_weight (c : Dev nD) (t : Fin cfg0.N) : (dats m 0 c).after 1 t = blockAt m c 1 t := by dsimp only [dats]
theorem after_bias (c : Dev nD) (t : Fin cfg0.N) : (dats m 0 c).after 2 t = blockAt m c 2 t := by dsimp only [dats]
theorem after_out (c : Dev nD) (t : Fin cfg0.N) :
    (dats m 0 c).after 3 t = rowsOut (blockAt m c 0 t) (blockAt m c 1 t) (blockAt m c 2 t) := by dsimp only [dats]

theorem before_rows (c : Dev nD) (t : Fin cfg0.N) (d) : (dats m 0 c).before 0 t d = blockAt m c 0 t :=
  rows_found m (dats m 0 c) (arrays_at_entry m c 0) (after_rows m c) t d
theorem before_weight (c : Dev nD) (t : Fin cfg0.N) (d) : (dats m 0 c).before 1 t d = blockAt m c 1 t :=
  weight_found m (dats m 0 c) (arrays_at_entry m c 1) (after_weight m c) t d
theorem before_bias (c : Dev nD) (t : Fin cfg0.N) (d) : (dats m 0 c).before 2 t d = blockAt m c 2 t :=
  bias_found m (dats m 0 c) (arrays_at_entry m c 2) (after_bias m c) t d

/-! ## The body obligation, at a generic point -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and the core's
    debts pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weight, before_bias]
  rw [show (dats m 0 c).Φ t.succ = (dats m 0 c).Φ t.castSucc from rfl,
    show (dats m 0 c).owesAt () t.succ = (dats m 0 c).owesAt () t.castSucc from rfl,
    after_rows, after_weight, after_bias, after_out]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates; at the end every array of the pipeline holds what the
    write-backs make of the per-point data, and every other unscoped buffer what the tail leaves. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps_arrays)
    (hmain := main_around m Variants.none) (hA := arrays_at_entry m) (hΦ := fun _ _ => rfl)

/-- The frame: @main runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  args_kept_of m ρ (dats m) (arrays_at_entry m) (run_main m ρ)

end Cert.KernelIdeal.Fr

end
-- ==== Proof.EntryKI.lean ====
/-
  The host side of the projection program, at any float instance.

  The two programs' first 88 host operations are the same operations of the same four arguments, so the [786432, 80]
  matrix X the region is handed is the reference's stage for that buffer; the bias row it is handed is the bias
  argument re-laid as [1, 32]; and the one host line after the region re-lays the pipeline's [786432, 32] output as
  the [16, 49152, 32] result. Also here: the body's one store covers its block and its loads read whole blocks, so
  the block it leaves is its arithmetic of the three blocks it was handed.
-/
import proofs.«170569_j26714696581338_1_alg».proof.Proof.FrameKI
import proofs.«170569_j26714696581338_1_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo Idealize.ShloMosaic.ValueIdx
open Idealize.ShloMosaic.Pipeline (Dat)

/-! ## The host prefix and the host tail, at any float instance -/

section AnyInstance
variable {F : FTy → Type} [FloatOps F]
variable (m : (ℓ : Loc nD τ sig) → Buf (Elt F) ℓ)

set_option maxHeartbeats 4000000 in
/-- The matrix the region is handed is the reference's stage for the same buffer: the two programs' first 88
    operations are the same operations of the same four arguments. -/
theorem entry_matrix (c : Dev nD) :
    (entry m c main_v71 : S786432x80.Idx → Elt F .f32)
      = Cert.ReferenceIdeal.Read.val_main_v71 (F := F) (m ((c.tc : Thread nD τ).loc main_arg0)) (m ((c.tc : Thread nD τ).loc main_arg1))
          (m ((c.tc : Thread nD τ).loc main_arg2)) (m ((c.tc : Thread nD τ).loc main_arg3)) := by
  show StableHlo.after hostOps0 (fun b => m (c, b)) (Proc.devRef .tc main_v71) = _
  after_results
  rfl

/-- The bias row the region is handed is the bias argument re-laid as [1, 32]. -/
theorem entry_bias (c : Dev nD) :
    (entry m c main_v72 : S1x32.Idx → Elt F .f32)
      = shapeCast S1x32 (m ((c.tc : Thread nD τ).loc main_arg5)) shapeCasts_S1x1x32_S1x32 := by
  show StableHlo.after hostOps0 (fun b => m (c, b)) (Proc.devRef .tc main_v72) = _
  after_results
  rfl

/-- After the tail, the program's result is the pipeline's output array re-laid as [16, 49152, 32]. -/
theorem result_relaid (c : Dev nD) :
    (Pipeline.afterTail₀ cfgs (dats m) 0 (entry0 m) [hostOps1] c main_v74 : S16x49152x32.Idx → Elt F .f32)
      = shapeCast S16x49152x32 ((dats m 0 c).arrAt 3 cfg0.N) shapeCasts_S786432x32_S16x49152x32 := by
  unfold Pipeline.afterTail₀
  show StableHlo.after hostOps1 _ (Proc.devRef .tc main_v74) = _
  after_results
  rw [Pipeline.withArrays_arr spec0 launch0.win.arr_inj c _ _ 3]; rfl

theorem zeros2 : (![0, 0] : Fin 2 → Nat) = fun _ => 0 := funext fun a => by fin_cases a <;> rfl

/-- The body's one store covers its block, and its loads read whole blocks: the output block is the body's
    arithmetic of the three input blocks. -/
theorem rowsOut_eq (x : Vec F S8192x80 .f32) (w : Vec F S80x32 .f32) (b : Vec F S1x32 .f32) :
    rowsOut x w b = k0_pay1 x w b := by
  unfold rowsOut
  rw [View.canon_unit_zero zeros2]
  simp only [View.ld_unit_zero (S := S8192x80) zeros2, View.ld_unit_zero (S := S80x32) zeros2, View.ld_unit_zero (S := S1x32) zeros2]

end AnyInstance

end Cert.KernelIdeal.Val

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.ValueKI.lean ====
/-
  What the idealized projection program computes, over the extended reals.

  Write X for the [786432, 80] matrix the host prefix builds (the five Chebyshev terms of the sparse recurrence laid
  side by side), W for the [80, 32] weight and b for the bias re-laid as [1, 32]. At grid point t the body is handed
  rows 8192·t … 8192·t + 8191 of X, all of W and b, and stores, at row p and column q of its block,
      ∑ₖ X[8192·t + p, k] · W[k, q] + b[0, q]
  (a change of float format is the identity here, and a product into a zero accumulator is the plain sum over the
  contracted axis). Row r of the result lies in the block of point r / 8192 and in no other, and the 96 blocks fill
  the array, so the [786432, 32] result ends at `proj X W b`, row r, column q ↦ ∑ₖ X[r, k] · W[k, q] + b[0, q]; the
  one host line after the region re-lays it as [16, 49152, 32].
-/
import proofs.«170569_j26714696581338_1_alg».proof.Proof.EntryKI
import proofs.«170569_j26714696581338_1_alg».proof.Proof.LibMatmulAt
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo Idealize.ShloMosaic.ValueIdx
open Idealize.ShloMosaic.Pipeline (Dat)

/-! ## Where the body's product reads its operands -/

theorem dot_lhs_row (i : S8192x32.Idx) (k : dot_S8192x80_S80x32_S8192x32_1_0_0_1_n_n.contr.Idx) :
    (dot_S8192x80_S80x32_S8192x32_1_0_0_1_n_n.lhsIdx i k 0).val = (i 0).val := by
  unfold DotDims.lhsIdx
  rw [dif_neg (show ¬(0 : Fin S8192x80.rank) ∈ dot_S8192x80_S80x32_S8192x32_1_0_0_1_n_n.lhsBatch by decide), dif_pos (show (0 : Fin S8192x80.rank) ∈ dot_S8192x80_S80x32_S8192x32_1_0_0_1_n_n.lhsNonContracting by decide)]
  rfl
theorem dot_lhs_contr (i : S8192x32.Idx) (k : dot_S8192x80_S80x32_S8192x32_1_0_0_1_n_n.contr.Idx) :
    (dot_S8192x80_S80x32_S8192x32_1_0_0_1_n_n.lhsIdx i k 1).val = (k ⟨0, by decide⟩).val :=
  dot_S8192x80_S80x32_S8192x32_1_0_0_1_n_n.lhsIdx_val_of_single rfl i k
theorem dot_rhs_contr (i : S8192x32.Idx) (k : dot_S8192x80_S80x32_S8192x32_1_0_0_1_n_n.contr.Idx) :
    (dot_S8192x80_S80x32_S8192x32_1_0_0_1_n_n.rhsIdx i k 0).val = (k ⟨0, by decide⟩).val :=
  dot_S8192x80_S80x32_S8192x32_1_0_0_1_n_n.rhsIdx_val_of_single rfl i k
theorem dot_rhs_col (i : S8192x32.Idx) (k : dot_S8192x80_S80x32_S8192x32_1_0_0_1_n_n.contr.Idx) :
    (dot_S8192x80_S80x32_S8192x32_1_0_0_1_n_n.rhsIdx i k 1).val = (i 1).val := by
  unfold DotDims.rhsIdx
  rw [dif_neg (show ¬(1 : Fin S80x32.rank) ∈ dot_S8192x80_S80x32_S8192x32_1_0_0_1_n_n.rhsBatch by decide), dif_pos (show (1 : Fin S80x32.rank) ∈ dot_S8192x80_S80x32_S8192x32_1_0_0_1_n_n.rhsNonContracting by decide)]
  rfl

/-! ## The body's arithmetic at one entry -/

/-- Row `p`, column `q` of the block the body stores: the row of the row block against the column of the weight,
    plus the bias at that column. -/
theorem payload_at (x : Vec Ideal S8192x80 .f32) (w : Vec Ideal S80x32 .f32) (b : Vec Ideal S1x32 .f32) (p : Fin 8192) (q : Fin 32) :
    k0_pay1 (F := Ideal) x w b (ix2 p q) = (∑ k : Fin 80, x (ix2 p k) * w (ix2 k q)) + b (ix2 0 q) := by
  have e : k0_pay1 (F := Ideal) x w b (ix2 p q)
      = FloatOps.matmul dot_S8192x80_S80x32_S8192x32_1_0_0_1_n_n none (truncf .bf16 (shapeCast S8192x80 x shapeCasts_S8192x80_S8192x80) bitsLt_bf16_f32)
            (truncf .bf16 w bitsLt_bf16_f32) (constant (F := Ideal) S8192x32 .f32 0x00000000#32) (ix2 p q)
        + broadcastTo S8192x32 (shapeCast S1x32 b shapeCasts_S1x32_S1x32) broadcasts_S1x32_S8192x32 (ix2 p q) := rfl
  rw [e, MatmulAt.matmul_zero_at dot_S8192x80_S80x32_S8192x32_1_0_0_1_n_n rfl rfl dot_lhs_row dot_lhs_contr dot_rhs_contr dot_rhs_col none _ _ p q,
    broadcastTo_apply _ broadcasts_S1x32_S8192x32 (ix2 p q) (ix2 0 q) (fun a => match a with
      | ⟨0, _⟩ => by show 0 = if (1 : Nat) = 1 then 0 else _; rw [if_pos rfl]
      | ⟨1, _⟩ => by show q.val = if (32 : Nat) = 1 then 0 else q.val; rw [if_neg (by decide)]),
    shapeCast_self, shapeCast_self]
  rfl

/-! ## The result as one function -/

/-- Row `r`, column `q` ↦ ∑ₖ X[r, k] · W[k, q] + b[0, q]. -/
def proj (X : S786432x80.Idx → EReal) (W : S80x32.Idx → EReal) (B : S1x32.Idx → EReal) : S786432x32.Idx → EReal :=
  fun i => (∑ k : Fin 80, X (ix2 (n0 := 786432) (n1 := 80) ⟨(i 0).val, (i 0).isLt⟩ k) * W (ix2 (n0 := 80) (n1 := 32) k ⟨(i 1).val, (i 1).isLt⟩))
    + B (ix2 (n0 := 1) (n1 := 32) 0 ⟨(i 1).val, (i 1).isLt⟩)

variable (m : (ℓ : Loc nD τ sig) → Buf (Elt Ideal) ℓ) (ρ : Dev nD → PrngReg)

/-- The index maps over the grid: the matrix and the result move one block of rows per point; the weight and the
    bias stay put. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arrays the region is handed, and their blocks at a point, at their literal types. -/
abbrev matrixIn (c : Dev nD) : S786432x80.Idx → EReal := entry m c main_v71
abbrev weightIn (c : Dev nD) : S80x32.Idx → EReal := entry m c main_arg4
abbrev biasIn (c : Dev nD) : S1x32.Idx → EReal := entry m c main_v72
abbrev rowsBlk (c : Dev nD) (t : Fin cfg0.N) : S8192x80.Idx → EReal := blockAt m c 0 t
abbrev weightBlk (c : Dev nD) (t : Fin cfg0.N) : S80x32.Idx → EReal := blockAt m c 1 t
abbrev biasBlk (c : Dev nD) (t : Fin cfg0.N) : S1x32.Idx → EReal := blockAt m c 2 t

/-- A block read through its window is the array at the block's embedded index. -/
theorem rowsBlk_read (c : Dev nD) (t : Fin cfg0.N) (y : ((cfg0.win 0).xblock (cfg0.grid.coords t)).Idx) :
    blockAt m c 0 t y = matrixIn m c (((cfg0.win 0).blk t).view.emb y) := (View.read_apply _ _).trans (cast_eq _ _)
theorem weightBlk_read (c : Dev nD) (t : Fin cfg0.N) (y : ((cfg0.win 1).xblock (cfg0.grid.coords t)).Idx) :
    blockAt m c 1 t y = weightIn m c (((cfg0.win 1).blk t).view.emb y) := (View.read_apply _ _).trans (cast_eq _ _)
theorem biasBlk_read (c : Dev nD) (t : Fin cfg0.N) (y : ((cfg0.win 2).xblock (cfg0.grid.coords t)).Idx) :
    blockAt m c 2 t y = biasIn m c (((cfg0.win 2).blk t).view.emb y) := (View.read_apply _ _).trans (cast_eq _ _)
theorem out_read (G : S786432x32.Idx → EReal) (t : Fin cfg0.N) (y : ((cfg0.win 3).xblock (cfg0.grid.coords t)).Idx) :
    ((cfg0.win 3).blk t).view.read (Elt Ideal) G y = G (((cfg0.win 3).blk t).view.emb y) := (View.read_apply _ _).trans (cast_eq _ _)

/-- Row `p` of point `t`'s row block is row `8192·t + p` of the matrix. -/
theorem rowsBlk_at (c : Dev nD) (t : Fin cfg0.N) (p : Fin 8192) (k : Fin 80) (r : Fin 786432) (hr : r.val = t.val * 8192 + p.val) :
    rowsBlk m c t (ix2 p k) = matrixIn m c (ix2 r k) := by
  obtain ⟨e00, e01, -⟩ := index_maps t
  refine (rowsBlk_read m c t (ix2 p k)).trans (congrArg (matrixIn m c) (funext fun a => Fin.ext ?_))
  match a with
  | ⟨0, _⟩ => show win0_0.index t (0 : Fin 2) * 8192 + 1 * p.val = r.val; omega
  | ⟨1, _⟩ => show win0_0.index t (1 : Fin 2) * 80 + 1 * k.val = k.val; omega

/-- The weight's block is the weight, at every point. -/
theorem weightBlk_at (c : Dev nD) (t : Fin cfg0.N) (k : Fin 80) (q q' : Fin 32) (hq : q'.val = q.val) :
    weightBlk m c t (ix2 k q) = weightIn m c (ix2 k q') := by
  obtain ⟨-, -, e10, e11, -⟩ := index_maps t
  refine (weightBlk_read m c t (ix2 k q)).trans (congrArg (weightIn m c) (funext fun a => Fin.ext ?_))
  match a with
  | ⟨0, _⟩ => show win0_1.index t (0 : Fin 2) * 80 + 1 * k.val = k.val; omega
  | ⟨1, _⟩ => show win0_1.index t (1 : Fin 2) * 32 + 1 * q.val = q'.val; omega

/-- The bias row's block is the bias row, at every point. -/
theorem biasBlk_at (c : Dev nD) (t : Fin cfg0.N) (q q' : Fin 32) (hq : q'.val = q.val) :
    biasBlk m c t (ix2 0 q) = biasIn m c (ix2 0 q') := by
  obtain ⟨-, -, -, -, e20, e21, -⟩ := index_maps t
  refine (biasBlk_read m c t (ix2 0 q)).trans (congrArg (biasIn m c) (funext fun a => Fin.ext ?_))
  match a with
  | ⟨0, _⟩ => show win0_2.index t (0 : Fin 2) * 1 + 1 * 0 = 0; omega
  | ⟨1, _⟩ => show win0_2.index t (1 : Fin 2) * 32 + 1 * q.val = q'.val; omega

/-- Where point `t`'s output block puts its entry (p, q): row `8192·t + p`, column `q`. -/
theorem out_emb_row (t : Fin cfg0.N) (p : Fin 8192) (q : Fin 32) :
    ((((cfg0.win 3).blk t).view.emb (ix2 p q)) 0).val = t.val * 8192 + p.val := by
  obtain ⟨-, -, -, -, -, -, e30, e31⟩ := index_maps t
  show win0_3.index t (0 : Fin 2) * 8192 + 1 * p.val = _; omega
theorem out_emb_col (t : Fin cfg0.N) (p : Fin 8192) (q : Fin 32) :
    ((((cfg0.win 3).blk t).view.emb (ix2 p q)) 1).val = q.val := by
  obtain ⟨-, -, -, -, -, -, e30, e31⟩ := index_maps t
  show win0_3.index t (1 : Fin 2) * 32 + 1 * q.val = _; omega

/-- The block's own index under the (uncut) window's cut is itself. -/
theorem cut_at (X : S8192x32.Idx → EReal) (t : Fin cfg0.N) (y : ((cfg0.win 3).xblock (cfg0.grid.coords t)).Idx) :
    (cfg0.win 3).cut (grid0.coords t) X y = X y := rfl

/-- What point `t` writes back is block `t` of `proj` of the arrays the region was handed. -/
theorem written_back (c : Dev nD) (t : Fin cfg0.N) :
    (dats m 0 c).flushed 3 t
      = ((cfg0.win 3).blk t).view.read (Elt Ideal) (proj (matrixIn m c) (weightIn m c) (biasIn m c)) := by
  show (cfg0.win 3).cut (grid0.coords t) ((dats m 0 c).after 3 t) = _
  rw [after_out, rowsOut_eq]
  funext j
  obtain ⟨p, q, rfl⟩ : ∃ (p : Fin 8192) (q : Fin 32), j = ix2 p q := ⟨j 0, j 1, eq_ix2 j⟩
  refine (cut_at (k0_pay1 (F := Ideal) (rowsBlk m c t) (weightBlk m c t) (biasBlk m c t)) t (ix2 p q)).trans ?_
  refine Eq.trans ?_ (out_read (proj (matrixIn m c) (weightIn m c) (biasIn m c)) t (ix2 p q)).symm
  refine (payload_at (rowsBlk m c t) (weightBlk m c t) (biasBlk m c t) p q).trans ?_
  unfold proj
  refine congrArg₂ (· + ·) (Finset.sum_congr rfl fun k _ => ?_) ?_
  · exact congrArg₂ (· * ·) (rowsBlk_at m c t p k ⟨_, _⟩ (out_emb_row t p q)) (weightBlk_at m c t k q ⟨_, _⟩ (out_emb_col t p q))
  · exact biasBlk_at m c t q ⟨_, _⟩ (out_emb_col t p q)

/-- An index of the result is in point `t`'s block iff each coordinate is in the block's range on its axis. -/
theorem mem_block (t : Fin cfg0.N) (i : S786432x32.Idx) :
    i ∈ ((cfg0.win 3).blk t).view.set ↔ ∀ a : Fin 2, win0_3.index t a * S8192x32.size a ≤ (i a).val ∧ (i a).val < win0_3.index t a * S8192x32.size a + S8192x32.size a := by
  show i ∈ ((View.whole main_v73).slice (win0_3.rect t)).set ↔ _
  rw [View.set_slice_whole, Rect.mem_set_unit]
  exact Iff.rfl

/-- Row `r` lies in the block of point `r / 8192`: the 96 blocks fill the result. -/
theorem rows_covered (i : S786432x32.Idx) :
    ∃ t : Fin cfg0.N, (cfg0.win 3).flush t = true ∧ i ∈ ((cfg0.win 3).blk t).view.set := by
  have hi0 : (i 0).val < 786432 := (i 0).isLt
  have hi1 : (i 1).val < 32 := (i 1).isLt
  have hN : cfg0.N = 96 := N_0
  refine ⟨⟨(i 0).val / 8192, by rw [hN]; omega⟩, flush0_3 _, ?_⟩
  rw [mem_block]
  obtain ⟨-, -, -, -, -, -, e30, e31⟩ := index_maps ⟨(i 0).val / 8192, by rw [hN]; omega⟩
  intro a
  match a with
  | ⟨0, _⟩ =>
    show win0_3.index _ (0 : Fin 2) * 8192 ≤ (i 0).val ∧ (i 0).val < win0_3.index _ (0 : Fin 2) * 8192 + 8192
    rw [e30]; show (i 0).val / 8192 * 8192 ≤ (i 0).val ∧ (i 0).val < (i 0).val / 8192 * 8192 + 8192; omega
  | ⟨1, _⟩ =>
    show win0_3.index _ (1 : Fin 2) * 32 ≤ (i 1).val ∧ (i 1).val < win0_3.index _ (1 : Fin 2) * 32 + 32
    rw [e31]; omega

/-- The pipeline's output array after the run. -/
theorem output_array (c : Dev nD) :
    (dats m 0 c).arrAt 3 cfg0.N = proj (matrixIn m c) (weightIn m c) (biasIn m c) :=
  (dats m 0 c).arrAt_eq_of_cover 3 _ (fun t _ => written_back m c t) rows_covered

/-- The program's result, as a function of the six arguments. -/
def result (c : Dev nD) : S16x49152x32.Idx → EReal :=
  shapeCast S16x49152x32
    (proj (Cert.ReferenceIdeal.Read.val_main_v71 (F := Ideal) (m ((c.tc : Thread nD τ).loc main_arg0)) (m ((c.tc : Thread nD τ).loc main_arg1))
        (m ((c.tc : Thread nD τ).loc main_arg2)) (m ((c.tc : Thread nD τ).loc main_arg3)))
      (m ((c.tc : Thread nD τ).loc main_arg4))
      (shapeCast S1x32 (m ((c.tc : Thread nD τ).loc main_arg5)) shapeCasts_S1x1x32_S1x32))
    shapeCasts_S786432x32_S16x49152x32

theorem result_eq (c : Dev nD) :
    (Pipeline.afterTail₀ cfgs (dats m) 0 (entry0 m) [hostOps1] c main_v74 : S16x49152x32.Idx → EReal) = result m c := by
  rw [result_relaid, output_array]
  unfold matrixIn weightIn biasIn
  rw [entry_matrix, entry_arg4, entry_bias]
  rfl

/-- The run, with the result named and the arguments unchanged. -/
theorem run : θ_run defs (onTc (τ := τ) (main (F := Ideal))) ⟨m, fun _ => 0, ρ⟩ fun r => ∀ c : Dev nD,
      r.2.mem ((c.tc : Thread nD τ).loc main_v74) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨((h c).2 main_v74 (Pipeline.mem_restRefs_of main_v74 (by decide) (by decide))).trans (result_eq m c),
        args_kept_post m (dats m) (arrays_at_entry m) r h c⟩)
    (run_main m ρ)

end Cert.KernelIdeal.Val

end
-- ==== Proof.Bridge.lean ====
/-
  The idealized kernel's result is the reference's.

  With X the [786432, 80] matrix both programs build from the first four arguments, W the weight and b the bias, the
  reference computes (X · W re-laid as [16, 49152, 32]) + (b broadcast along the first two axes), and the kernel
  computes (X · W + the bias row on every row) re-laid as [16, 49152, 32]. At index (p, q, j) both are
      ∑ₖ X[p · 49152 + q, k] · W[k, j] + b[0, 0, j]
  — the same sum of the same terms in the same order, so no law of the extended reals is used beyond the
  definitions, and finiteness of the inputs plays no part.
-/
import proofs.«170569_j26714696581338_1_alg».proof.Proof.ValueKI

set_option maxRecDepth 16384

noncomputable section

namespace Cert.KernelIdeal.Bridge

open Cert.KernelIdeal Cert.KernelIdeal.Gen Cert.KernelIdeal.Val
open Idealize.ShloMosaic Idealize.ShloMosaic.TcCoe Idealize.ShloMosaic.ValueIdx
open Cert.ReferenceIdeal.Read (val_main_v71 val_main_v72 val_main_v73 val_main_v74 val_main_v75 idx_main_v73 idx_main_v74 lidx_main_v72 ridx_main_v72)

/-- The product-plus-bias re-laid is the reference's last stage, index by index. -/
theorem relaid_proj_eq_reference (x0 : S16x49152x16.Idx → EReal) (x1 x2 : S393216.Idx → BitVec 32) (x3 : S393216.Idx → EReal)
    (W : S80x32.Idx → EReal) (b : S1x1x32.Idx → EReal) :
    shapeCast S16x49152x32 (proj (val_main_v71 (F := Ideal) x0 x1 x2 x3) W (shapeCast S1x32 b shapeCasts_S1x1x32_S1x32)) shapeCasts_S786432x32_S16x49152x32
      = val_main_v75 (F := Ideal) x0 x1 x2 x3 W b := by
  funext i
  have h0 : (i 0).val < 16 := (i 0).isLt
  have h1 : (i 1).val < 49152 := (i 1).isLt
  have h2 : (i 2).val < 32 := (i 2).isLt
  rw [Cert.ReferenceIdeal.Read.val_main_v75_apply, Cert.ReferenceIdeal.Read.val_main_v73_apply,
    Cert.ReferenceIdeal.Read.val_main_v74_apply, Cert.ReferenceIdeal.Read.val_main_v72_apply]
  generalize val_main_v71 (F := Ideal) x0 x1 x2 x3 = X
  rw [shapeCast_apply _ shapeCasts_S786432x32_S16x49152x32 i (idx_main_v73 i) (by
    rewrite [Shape.rowMajor_val_two, Shape.rowMajor_val_three]
    show (((i 0).val * 49152 + (i 1).val) * 32 + (i 2).val) / 32 * 32 + (((i 0).val * 49152 + (i 1).val) * 32 + (i 2).val) % 32 = ((i 0).val * 49152 + (i 1).val) * 32 + (i 2).val
    omega)]
  unfold proj
  rw [shapeCast_apply b shapeCasts_S1x1x32_S1x32 _ (idx_main_v74 i) (by
    rewrite [Shape.rowMajor_val_two, Shape.rowMajor_val_three]
    show (0 * 1 + 0) * 32 + (i 2).val = 0 * 32 + (((i 0).val * 49152 + (i 1).val) * 32 + (i 2).val) % 32
    omega)]
  show _ + _ = _ + _
  refine congrArg (· + _) (Finset.sum_congr rfl fun k _ => ?_)
  have el : ix2 (n0 := 786432) (n1 := 80) ⟨((idx_main_v73 i) 0).val, ((idx_main_v73 i) 0).isLt⟩ k = lidx_main_v72 (idx_main_v73 i) k :=
    funext fun a => match a with | ⟨0, _⟩ => rfl | ⟨1, _⟩ => rfl
  have er : ix2 (n0 := 80) (n1 := 32) k ⟨((idx_main_v73 i) 1).val, ((idx_main_v73 i) 1).isLt⟩ = ridx_main_v72 (idx_main_v73 i) k :=
    funext fun a => match a with | ⟨0, _⟩ => rfl | ⟨1, _⟩ => rfl
  rw [el, er]

end Cert.KernelIdeal.Bridge

end
-- ==== Proof.lean ====
/-
  The certificate: the projection kernel against its reference, over the extended reals.

  Both programs build the same [786432, 80] matrix X from the first four arguments (the Chebyshev recurrence of the
  sparse operator: four gather / scatter-add rounds, the five terms laid side by side); the kernel then multiplies X
  by the [80, 32] weight and adds the bias in one pipelined region of 96 row blocks, the reference in two host
  operations. Over the extended reals a change of float format is the identity and a product into a zero
  accumulator is the plain sum over the contracted axis, so at every index both results are
      ∑ₖ X[r, k] · W[k, j] + b[j],
  the same sum of the same terms: finiteness of the inputs is not used.

  The three frames: the word-level and the idealized kernel run to the end and leave the six arguments unchanged
  (Proof/FrameK.lean, Proof/FrameKI.lean: the body's triple, the per-point data, the launch around the region); the
  reference is host operations only, and its frame is its run with the result dropped. The idealization rewrote
  nothing, so nothing is owed for it.
-/
import proofs.«170569_j26714696581338_1_alg».proof.Defs
import proofs.«170569_j26714696581338_1_alg».proof.Proof.Gen.Kernel
import proofs.«170569_j26714696581338_1_alg».proof.Proof.Gen.KernelIdeal
import proofs.«170569_j26714696581338_1_alg».proof.Proof.Gen.ReferenceIdeal
import proofs.«170569_j26714696581338_1_alg».proof.Proof.Gen.Pre_finite_inputs
import proofs.«170569_j26714696581338_1_alg».proof.Proof.Gen.ReferenceIdeal.Run
import proofs.«170569_j26714696581338_1_alg».proof.Proof.Gen.ReferenceIdeal.Read
import proofs.«170569_j26714696581338_1_alg».proof.Proof.FrameK
import proofs.«170569_j26714696581338_1_alg».proof.Proof.FrameKI
import proofs.«170569_j26714696581338_1_alg».proof.Proof.ValueKI
import proofs.«170569_j26714696581338_1_alg».proof.Proof.Bridge

noncomputable section

namespace Cert.Proof

open Idealize.ShloMosaic Idealize.SL.Sem

theorem frame_kernel : Cert.frame_Kernel := fun m ρ _ => Cert.Kernel.Fr.frame m ρ
theorem frame_kernel_ideal : Cert.frame_KernelIdeal := fun m ρ _ => Cert.KernelIdeal.Fr.frame m ρ
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The idealized kernel ends at `Val.result` of its arguments; the reference, from arguments that agree, ends at its
    last stage of them, which is the same function index by index. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2.1, (hagree c).2.2.1, (hagree c).2.2.2.1,
    (hagree c).2.2.2.2.1, (hagree c).2.2.2.2.2]
  exact (Cert.KernelIdeal.Bridge.relaid_proj_eq_reference _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
